-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S1600000 32) (main_arg2 : IVec S1600000 32) (main_arg3 : FVec F S1600000 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S10000x128 : Shape := ⟨2, ![10000, 128]⟩

abbrev nBuf : Space → Nat
  | .hbm => 23
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Spec.lean ====
/-
  The function both programs compute after the shared sparse aggregation: the dense linear layer
  `out[n, o] = ∑ₖ y[n, k] · w[o, k]`, that is `y · wᵀ`, over the extended reals.  Here `y` is the
  [100000, 128] array of aggregated messages and `w` the [128, 128] weight matrix.  The idealized
  kernel forms the same sum from the transposed weights `wᵀ[k, o]`, one block of 10000 rows at a time.
-/
import Idealize.ShloMosaic.PureOps.Ideal
import Idealize.ShloMosaic.Lib.ValueIdx

noncomputable section

namespace Cert.Linear

open Idealize.ShloMosaic Idealize.ShloMosaic.ValueIdx

/-- The dense layer `y · wᵀ`: entry `(n, o)` is the sum over the feature axis `k` of `y[n, k] · w[o, k]`. -/
def linear (y : (⟨2, ![100000, 128]⟩ : Shape).Idx → EReal) (w : (⟨2, ![128, 128]⟩ : Shape).Idx → EReal) :
    (⟨2, ![100000, 128]⟩ : Shape).Idx → EReal :=
  fun i => ∑ k : Fin 128, y (ix2 (i 0) k) * w (ix2 (i 1) k)

/-- The entry at an index whose coordinates are `n` and `o`. -/
theorem linear_at (y : (⟨2, ![100000, 128]⟩ : Shape).Idx → EReal) (w : (⟨2, ![128, 128]⟩ : Shape).Idx → EReal)
    (i : (⟨2, ![100000, 128]⟩ : Shape).Idx) (n : Fin 100000) (o : Fin 128) (hn : (i 0).val = n.val) (ho : (i 1).val = o.val) :
    linear y w i = ∑ k : Fin 128, y (ix2 n k) * w (ix2 o k) := by
  have e0 : i 0 = n := Fin.ext hn
  have e1 : i 1 = o := Fin.ext ho
  unfold linear
  rw [e0, e1]

-- From here on the sum is opened only through `linear_at`.
attribute [irreducible] linear

end Cert.Linear

end
-- ==== Proof.RefLinear.lean ====
/-
  The reference's last operation, a `dot_general` contracting the feature axis of the aggregated messages
  with the feature axis of the weights, is the dense layer `y · wᵀ` of the aggregated messages.
-/
import proofs.«115247_j36799279793050_1_alg».proof.Proof.Gen.ReferenceIdeal.Read
import proofs.«115247_j36799279793050_1_alg».proof.Proof.Spec

noncomputable section

namespace Cert.ReferenceIdeal.RefLinear

open Cert.ReferenceIdeal Cert.ReferenceIdeal.Read Idealize.ShloMosaic Idealize.ShloMosaic.ValueIdx

/-- The reference's result is `y · wᵀ`, with `y` its scatter-add stage. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal)) :
    val_main_v13 (F := Ideal) x0 x1 x2 x3 x4 = Cert.Linear.linear (val_main_v12 (F := Ideal) x0 x1 x2 x3) x4 := by
  funext i
  rw [val_main_v13_apply, Cert.Linear.linear_at _ _ i (i 0) (i 1) rfl rfl]
  refine Finset.sum_congr rfl fun k _ => ?_
  have el : lidx_main_v13 i k = ix2 (i 0) k := funext fun a => by
    match a with
    | ⟨0, _⟩ => rfl
    | ⟨1, _⟩ => rfl
  have er : ridx_main_v13 i k = ix2 (i 1) k := funext fun a => by
    match a with
    | ⟨0, _⟩ => rfl
    | ⟨1, _⟩ => rfl
  rw [el, er]
  rfl

end Cert.ReferenceIdeal.RefLinear

end
-- ==== Proof.Payload.lean ====
/-
  The kernel body's one stored value, read at an index.  The body loads a block `x` of 10000 rows of the
  aggregated messages and the whole transposed weight matrix `v`, narrows both to bf16 (the identity on
  the extended reals), and multiplies them into a zero accumulator.  So entry `(p, q)` of what it stores
  is `∑ₖ x[p, k] · v[k, q]`.
-/
import proofs.«115247_j36799279793050_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The left operand of the body's product is read at the output's row and the contracted position. -/
theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand is read at the contracted position and the output's column. -/
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, q)` of the stored block is the row `p` of the loaded rows against column `q` of the loaded
    transposed weights. -/
theorem pay_apply (x : Vec Ideal S10000x128 .f32) (v : Vec Ideal S128x128 .f32) (p : Fin 10000) (q : Fin 128) :
    k0_pay1 (F := Ideal) x v (ix2 p q) = ∑ k : Fin 128, x (ix2 p k) * v (ix2 k q) := by
  unfold k0_pay1
  show FloatOps.matmul dot_S10000x128_S128x128_S10000x128_1_0_0_1_n_n none
      (truncf (F := Ideal) .bf16 (shapeCast S10000x128 x shapeCasts_S10000x128_S10000x128) bitsLt_bf16_f32)
      (truncf (F := Ideal) .bf16 (shapeCast S128x128 v shapeCasts_S128x128_S128x128) bitsLt_bf16_f32)
      (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er, shapeCast_self, shapeCast_self]
  rfl

/-- The same at an index given by its two coordinates. -/
theorem pay_apply_at (x : Vec Ideal S10000x128 .f32) (v : Vec Ideal S128x128 .f32) (j : S10000x128.Idx)
    (p : Fin 10000) (q : Fin 128) (hp : (j 0).val = p.val) (hq : (j 1).val = q.val) :
    k0_pay1 (F := Ideal) x v j = ∑ k : Fin 128, x (ix2 p k) * v (ix2 k q) := by
  have hj : j = ix2 p q := funext fun a => Fin.ext (by
    match a with
    | ⟨0, _⟩ => exact hp
    | ⟨1, _⟩ => exact hq)
  rw [hj]
  exact pay_apply x v p q

end Cert.KernelIdeal.Payload

end
-- ==== Proof.RowBlocks.lean ====
/-
  From row blocks to the whole result.  The grid has ten points; point `t` multiplies rows
  `10000·t … 10000·t + 9999` of the aggregated messages `y` by the whole transposed weight matrix and
  writes the same rows of the result.  The transposed matrix read at `(k, o)` is the weight matrix at
  `(o, k)`, so every point writes its rows of `y · wᵀ`; the ten row blocks tile the result, which
  therefore ends holding `y · wᵀ`.
-/
import proofs.«115247_j36799279793050_1_alg».proof.Proof.Gen.KernelIdeal.Value
import proofs.«115247_j36799279793050_1_alg».proof.Proof.Payload
import proofs.«115247_j36799279793050_1_alg».proof.Proof.Spec
import Idealize.ShloMosaic.Lib.StableHlo.Run

noncomputable section

namespace Cert.KernelIdeal.RowBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The second operand of the region is the transposed weight matrix. -/
theorem weights_t (c : Dev nD) :
    (V m c main_v13 : S128x128.Idx → EReal)
      = transpose S128x128 [1, 0] (m ((c : Thread nD τ).loc main_arg4)) transposes_S128x128_S128x128_1_0 := by
  dsimp only [Gen.V, Gen.hostOps0]; after_results

/-- The block indices over the grid: the rows' window moves with the result's along the row axis, neither
    moves along the feature axis, and the weights' window stays at the origin. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem block_onto : ∀ b : Fin 10, ∃ t : Fin cfg0.N, win0_2.index t = ![b.val, 0] :=
  (by decide +kernel : ∀ b : Fin 10, ∃ t : Fin grid0.N, win0_2.index t = ![b.val, 0])

/-- The rows' window at point `t`, read off any contents `Y` of the messages' array: row `p` of the block is
    row `10000·t + p` of `Y`. -/
theorem read_rows (c : Dev nD) (t : Fin cfg0.N) (Y : Buf (Elt Ideal) ((c : Thread nD τ).loc main_v12))
    (p : Fin 10000) (k : Fin 128) (r : Fin 100000) (hr : r.val = win0_2.index t (0 : Fin 2) * 10000 + p.val) :
    ((cfg0.win 0).blk t).view.read (Elt Ideal) Y (ix2 p k) = Y (ix2 r k) := by
  obtain ⟨e0, e1, e2, e3, e4, e5⟩ := block_indices t
  rw [View.read_apply]
  show Y (((cfg0.win 0).blk t).view.emb (ix2 p k)) = _
  refine congrArg Y (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weights' window at every point, read off any contents `U` of its array, is the whole of `U`. -/
theorem read_weights (c : Dev nD) (t : Fin cfg0.N) (U : Buf (Elt Ideal) ((c : Thread nD τ).loc main_v13)) (k o : Fin 128) :
    ((cfg0.win 1).blk t).view.read (Elt Ideal) U (ix2 k o) = U (ix2 k o) := by
  obtain ⟨e0, e1, e2, e3, e4, e5⟩ := block_indices t
  rw [View.read_apply]
  show U (((cfg0.win 1).blk t).view.emb (ix2 k o)) = _
  refine congrArg U (funext fun a => Fin.ext ?_)
  match a with
  | ⟨0, _⟩ => show win0_1.index t (0 : Fin 2) * 128 + 1 * k.val = k.val; omega
  | ⟨1, _⟩ => show win0_1.index t (1 : Fin 2) * 128 + 1 * o.val = o.val; omega

/-- Row `p` of the rows' block at point `t` is row `10000·t + p` of the aggregated messages. -/
theorem row_block (c : Dev nD) (t : Fin cfg0.N) (p : Fin 10000) (k : Fin 128) (r : Fin 100000)
    (hr : r.val = win0_2.index t (0 : Fin 2) * 10000 + p.val) :
    iblk m c 0 t (ix2 p k) = V m c main_v12 (ix2 r k) :=
  read_rows c t (V m c main_v12) p k r hr

/-- The weights' block at every point is the whole transposed matrix: entry `(k, o)` is the weight `w[o, k]`. -/
theorem weight_block (c : Dev nD) (t : Fin cfg0.N) (k o : Fin 128) :
    iblk m c 1 t (ix2 k o) = m ((c : Thread nD τ).loc main_arg4) (ix2 o k) := by
  refine (read_weights c t (V m c main_v13) k o).trans ?_
  refine (congrFun (weights_t m c) (ix2 k o)).trans ?_
  refine transpose_apply [1, 0] _ transposes_S128x128_S128x128_1_0 _ _ (fun b => ?_)
  match b with
  | ⟨0, _⟩ => rfl
  | ⟨1, _⟩ => rfl

/-- What point `t` writes back is its row block of `y · wᵀ`. -/
theorem flushed_eq (c : Dev nD) (t : Fin cfg0.N) :
    (dats m 0 c).flushed 2 t = ((cfg0.win 2).blk t).view.read (Elt Ideal)
      (Cert.Linear.linear (V m c main_v12) (m ((c : Thread nD τ).loc main_arg4))) := by
  rw [Value.flushed2]
  unfold out0_2
  rw [View.canon_unit_zero origin]
  simp only [View.ld_unit_zero (S := S10000x128) origin, View.ld_unit_zero (S := S128x128) origin]
  obtain ⟨e0, e1, e2, e3, e4, e5⟩ := block_indices t
  funext j
  have hp : (j 0).val < 10000 := (j 0).isLt
  have hq : (j 1).val < 128 := (j 1).isLt
  have hn : win0_2.index t (0 : Fin 2) * 10000 + (j 0).val < 100000 := by omega
  -- the right side: the result's window reads `y · wᵀ` at the block's place in the array
  rw [View.read_apply]
  refine Eq.trans ?_ (cast_eq _ _).symm
  -- the left side: the stored block at `j`
  show k0_pay1 (F := Ideal) (iblk m c 0 t) (iblk m c 1 t) ((win0 2).xinj (grid0.coords t) j) = _
  have h0 : ((((View.whole main_v14).slice ((win0 2).rect t)).emb j) 0).val = win0_2.index t (0 : Fin 2) * 10000 + (j 0).val := by
    show win0_2.index t (0 : Fin 2) * 10000 + 1 * (j 0).val = _; omega
  have h1 : ((((View.whole main_v14).slice ((win0 2).rect t)).emb j) 1).val = (j 1).val := by
    show win0_2.index t (1 : Fin 2) * 128 + 1 * (j 1).val = _; omega
  refine (Payload.pay_apply_at (iblk m c 0 t) (iblk m c 1 t) _ ⟨(j 0).val, hp⟩ ⟨(j 1).val, hq⟩ rfl rfl).trans
    (Eq.trans ?_ (Cert.Linear.linear_at _ _ _
      ⟨win0_2.index t (0 : Fin 2) * 10000 + (j 0).val, hn⟩ ⟨(j 1).val, hq⟩ h0 h1).symm)
  refine Finset.sum_congr rfl fun k _ => ?_
  rw [row_block m c t ⟨(j 0).val, hp⟩ k ⟨win0_2.index t (0 : Fin 2) * 10000 + (j 0).val, hn⟩ rfl,
    weight_block m c t k ⟨(j 1).val, hq⟩]

/-- An index of the result is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v14).slice (win0_2.rect t)).set ↔ _
  rw [View.set_slice_whole, Rect.mem_set_unit]
  exact Iff.rfl

/-- The ten row blocks tile the result: row `r` is in the block of point `r / 10000`. -/
theorem tiled (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the run is `y · wᵀ`, with `y` the first operand as the region finds it. -/
theorem final (c : Dev nD) :
    (dats m 0 c).arrAt 2 cfg0.N = Cert.Linear.linear (V m c main_v12) (m ((c : Thread nD τ).loc main_arg4)) :=
  (dats m 0 c).arrAt_eq_of_cover 2 _ (fun t _ => flushed_eq m c t) tiled

/-- The kernel's run: the result at `y · wᵀ`, the arguments unchanged. -/
theorem run : θ_run defs (onTc (τ := τ) (main (F := Ideal))) ⟨m, fun _ => 0, ρ⟩ fun r => ∀ c : Dev nD,
      r.2.mem ((c : Thread nD τ).loc main_v14) = Cert.Linear.linear (V m c main_v12) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RowBlocks

end
-- ==== Proof.Aggregate.lean ====
/-
  The sparse aggregation is shared.  Before the region the kernel's host program gathers the rows
  `h[edge_col]` (negative indices wrapped by the row count), scales row `e` by `edge_val[e]`, and
  scatter-adds the rows into a zero [100000, 128] array at `edge_row`: the same operations, on the same
  operands and in the same order, as the reference's.  So the region's first operand is the reference's
  scatter-add stage of the arguments.
-/
import proofs.«115247_j36799279793050_1_alg».proof.Proof.Gen.KernelIdeal.Frame
import proofs.«115247_j36799279793050_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem

variable (m : (ℓ : Loc nD τ sig) → Buf (Elt Ideal) ℓ)

/-- The aggregated messages the region finds are the reference's scatter-add stage of the same arguments. -/
theorem messages_eq (c : Dev nD) :
    (V m c main_v12 : S100000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]; after_results
  rfl

end Cert.KernelIdeal.Aggregate

end
-- ==== Proof.lean ====
/-
  A linear graph-convolution layer: `msg = h[edge_col] · edge_val`, `y = segment_sum(msg, edge_row)`,
  `out = y · wᵀ`.  Kernel and reference share the sparse aggregation `y`, operation for operation, on the
  host.  They differ in the dense layer only: the reference contracts the feature axis of `y` with the
  feature axis of `w` in one `dot_general`; the kernel transposes `w` and multiplies ten blocks of 10000
  rows of `y` by `wᵀ` through bf16 operands into an f32 accumulator.  Over the extended reals the
  narrowing is the identity and both entries `(n, o)` are the same sum `∑ₖ y[n, k] · w[o, k]`, term by
  term, so no law of arithmetic (and no finiteness of the inputs) is needed.

  The modules: Spec (the function `y · wᵀ`), RefLinear (the reference's last stage is it), Payload (the
  kernel body's stored value at an index), RowBlocks (the ten row blocks tile the result), Aggregate (the
  region's first operand is the reference's aggregation stage).
-/
import proofs.«115247_j36799279793050_1_alg».proof.Defs
import proofs.«115247_j36799279793050_1_alg».proof.Proof.Gen.Kernel
import proofs.«115247_j36799279793050_1_alg».proof.Proof.Gen.Kernel.Skeleton
import proofs.«115247_j36799279793050_1_alg».proof.Proof.Gen.Kernel.Launch
import proofs.«115247_j36799279793050_1_alg».proof.Proof.Gen.Kernel.Points
import proofs.«115247_j36799279793050_1_alg».proof.Proof.Gen.Kernel.Frame
import proofs.«115247_j36799279793050_1_alg».proof.Proof.Gen.KernelIdeal
import proofs.«115247_j36799279793050_1_alg».proof.Proof.Gen.KernelIdeal.Skeleton
import proofs.«115247_j36799279793050_1_alg».proof.Proof.Gen.KernelIdeal.Launch
import proofs.«115247_j36799279793050_1_alg».proof.Proof.Gen.KernelIdeal.Points
import proofs.«115247_j36799279793050_1_alg».proof.Proof.Gen.KernelIdeal.Frame
import proofs.«115247_j36799279793050_1_alg».proof.Proof.Gen.ReferenceIdeal
import proofs.«115247_j36799279793050_1_alg».proof.Proof.Gen.Pre_finite_inputs
import proofs.«115247_j36799279793050_1_alg».proof.Proof.Gen.KernelIdeal.Value
import proofs.«115247_j36799279793050_1_alg».proof.Proof.Gen.ReferenceIdeal.Run
import proofs.«115247_j36799279793050_1_alg».proof.Proof.Gen.ReferenceIdeal.Read
import proofs.«115247_j36799279793050_1_alg».proof.Proof.Spec
import proofs.«115247_j36799279793050_1_alg».proof.Proof.RefLinear
import proofs.«115247_j36799279793050_1_alg».proof.Proof.RowBlocks
import proofs.«115247_j36799279793050_1_alg».proof.Proof.Aggregate
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `y · wᵀ` of the shared aggregation `y` of the (agreeing) arguments. -/
theorem algebraic : Cert.algebraic_KernelIdeal_ReferenceIdeal := by
  intro m ρ m' ρ' _ hagree
  refine ⟨fun c => Cert.Linear.linear (Cert.KernelIdeal.Gen.V m c Cert.KernelIdeal.main_v12)
      (m ((c : Thread Cert.KernelIdeal.nD Cert.KernelIdeal.τ).loc Cert.KernelIdeal.main_arg4)),
    Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefLinear.result_eq,
    (hagree c).1, (hagree c).2.1, (hagree c).2.2.1, (hagree c).2.2.2.1, (hagree c).2.2.2.2]
  exact congrArg (fun y => Cert.Linear.linear y _) (Cert.KernelIdeal.Aggregate.messages_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
